-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S131072x15 : S_.BroadcastsInDim S131072x15 (![] : Fin 0 → Fin S131072x15.rank)
  reducesTo_S131072x15_S_d0_1 : S131072x15.ReducesTo [0, 1] S_
  h_S_ : 0 < S_.numel
  bcast_S_S36x128 : S_.BroadcastsInDim S36x128 (![] : Fin 0 → Fin S36x128.rank)
  reducesTo_S36x128_S_d0_1 : S36x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S512 .f32) (main_arg5 : FVec F S512x40 .f32) (main_arg6 : FVec F S40 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x40 .f32 := Host.absf main_arg5
  let main_cst_8 : FVec F S_ .f32 := constant S_ .f32 0x7F800000#32
  let main_v25 : FVec F S512x40 .f32 := broadcastInDim S512x40 ![] bcast_S_S512x40 main_cst_8
  let main_v26 : IVec S512x40 1 := cmpf .olt main_v24 main_v25
  let main_c_9 : IVec S_ 1 := constantI S_ 1 1#1
  let main_v27 : IVec S_ 1 := (fun x v => Host.reduce IntOp.andi x v reducesTo_S512x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S131072x15 .f32) (main_arg1 : FVec F S36x128 .f32) (main_arg2 : FVec F S128 .f32) (main_arg3 : FVec F S128x512 .f32) (main_arg4 : FVec F S512 .f32) (main_arg5 : FVec F S512x40 .f32) (main_arg6 : FVec F S40 .f32) : IVec S_ 1 :=
  let main_v0 : FVec F S131072x15 .f32 := Host.absf main_arg0
  let main_cst : FVec F S_ .f32 := constant S_ .f32 0x7F800000#32
  let main_v1 : FVec F S131072x15 .f32 := broadcastInDim S131072x15 ![] bcast_S_S131072x15 main_cst
  let main_v2 : IVec S131072x15 1 := cmpf .olt main_v0 main_v1
  let main_c : IVec S_ 1 := constantI S_ 1 1#1
  let main_v3 : IVec S_ 1 := (fun x v => Host.reduce IntOp.andi x v reducesTo_S131072x15_S_d0_1 h_S_) main_v2 main_c
  let main_v4 : FVec F S36x128 .f32 := Host.absf main_arg1
  let main_cst_0 : FVec F S_ .f32 := constant S_ .f32 0x7F800000#32
  let main_v5 : FVec F S36x128 .f32 := broadcastInDim S36x128 ![] bcast_S_S36x128 main_cst_0
  let main_v6 : IVec S36x128 1 := cmpf .olt main_v4 main_v5
  let main_c_1 : IVec S_ 1 := constantI S_ 1 1#1
  let main_v7 : IVec S_ 1 := (fun x v => Host.reduce IntOp.andi x v reducesTo_S36x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S131072x40 : Shape := ⟨2, ![131072, 40]⟩
abbrev S2048x15 : Shape := ⟨2, ![2048, 15]⟩
abbrev S2048x40 : Shape := ⟨2, ![2048, 40]⟩
abbrev S2048x11 : Shape := ⟨2, ![2048, 11]⟩
abbrev S2048x1 : Shape := ⟨2, ![2048, 1]⟩
abbrev S2048 : Shape := ⟨1, ![2048]⟩
abbrev S2048x3 : Shape := ⟨2, ![2048, 3]⟩
abbrev S2048x4 : Shape := ⟨2, ![2048, 4]⟩
abbrev S2048x7 : Shape := ⟨2, ![2048, 7]⟩
abbrev S2048x21 : Shape := ⟨2, ![2048, 21]⟩
abbrev S2048x36 : Shape := ⟨2, ![2048, 36]⟩
abbrev S2048x128 : Shape := ⟨2, ![2048, 128]⟩
abbrev S1x128 : Shape := ⟨2, ![1, 128]⟩
abbrev S2048x512 : Shape := ⟨2, ![2048, 512]⟩
abbrev S1x512 : Shape := ⟨2, ![1, 512]⟩
abbrev S1x40 : Shape := ⟨2, ![1, 40]⟩

abbrev nBuf : Space → Nat
  | .hbm => 8
  | .vmem => 10
  | .smem => 0
  | _ => 0

abbrev bufTy : (tb : Table) → Fin (tcTables nBuf tb) → BufTy
  | .hbm, ⟨0, _⟩ => ⟨S131072x15, .f32⟩
  | .hbm, ⟨1, _⟩ => ⟨S36x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S512x40, .f32⟩
  | .hbm, ⟨6, _⟩ => ⟨S40, .f32⟩
  | .hbm, ⟨7, _⟩ => ⟨S131072x40, .f32⟩
  | .local _ .vmem, ⟨0, _⟩ => ⟨S2048x15, .f32⟩
  | .local _ .vmem, ⟨1, _⟩ => ⟨S2048x15, .f32⟩
  | .local _ .vmem, ⟨2, _⟩ => ⟨S36x128, .f32⟩
  | .local _ .vmem, ⟨3, _⟩ => ⟨S128, .f32⟩
  | .local _ .vmem, ⟨4, _⟩ => ⟨S128x512, .f32⟩
  | .local _ .vmem, ⟨5, _⟩ => ⟨S512, .f32⟩
  | .local _ .vmem, ⟨6, _⟩ => ⟨S512x40, .f32⟩
  | .local _ .vmem, ⟨7, _⟩ => ⟨S40, .f32⟩
  | .local _ .vmem, ⟨8, _⟩ => ⟨S2048x40, .f32⟩
  | .local _ .vmem, ⟨9, _⟩ => ⟨S2048x40, .f32⟩
  | _, _ => ⟨S131072x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x15_S2048x15_0_0 : ∀ a, (![0, 0] : Fin 2 → Nat) a + S2048x15.size a ≤ S2048x15.size a
  h_S2048x15 : 0 < S2048x15.numel
  slices_S2048x15_o0_0_S2048x11 : S2048x15.Slices ![0, 0] S2048x11
  slices_S2048x15_o0_11_S2048x1 : S2048x15.Slices ![0, 11] S2048x1
  shapeCasts_S2048x1_S2048 : S2048x1.ShapeCasts S2048
  slices_S2048x15_o0_12_S2048x3 : S2048x15.Slices ![0, 12] S2048x3
  iota_S2048x4_d1_w32 : S2048x4.Iotas .tc 32 [1]
  shapeCasts_S2048_S2048x1 : S2048.ShapeCasts S2048x1
  broadcasts_S2048x1_S2048x4 : S2048x1.Broadcasts S2048x4
  natLt_1_32 : 1 < 32
  iota_S2048x7_d1_w32 : S2048x7.Iotas .tc 32 [1]
  slices_S2048x3_o0_0_S2048x1 : S2048x3.Slices ![0, 0] S2048x1
  broadcasts_S2048x1_S2048x7 : S2048x1.Broadcasts S2048x7
  slices_S2048x3_o0_1_S2048x1 : S2048x3.Slices ![0, 1] S2048x1
  slices_S2048x3_o0_2_S2048x1 : S2048x3.Slices ![0, 2] S2048x1
  concatenates_S2048x7_S2048x7_S2048x7_S2048x21_d1 : Shape.Concatenates [S2048x7, S2048x7, S2048x7] S2048x21 1
  concatenates_S2048x11_S2048x4_S2048x21_S2048x36_d1 : Shape.Concatenates [S2048x11, S2048x4, S2048x21] S2048x36 1
  bitsLt_bf16_f32 : FTy.bits .bf16 < FTy.bits .f32
  inb_S36x128_S36x128_0_0 : ∀ a, (![0, 0] : Fin 2 → Nat) a + S36x128.size a ≤ S36x128.size a
  h_S36x128 : 0 < S36x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x40_S512x40_0_0 : ∀ a, (![0, 0] : Fin 2 → Nat) a + S512x40.size a ≤ S512x40.size a
  h_S512x40 : 0 < S512x40.numel
  inb_S40_S40_0 : ∀ a, (![0] : Fin 1 → Nat) a + S40.size a ≤ S40.size a
  h_S40 : 0 < S40.numel
  shapeCasts_S40_S1x40 : S40.ShapeCasts S1x40
  broadcasts_S1x40_S2048x40 : S1x40.Broadcasts S2048x40
  inb_S2048x40_S2048x40_0_0 : ∀ a, (![0, 0] : Fin 2 → Nat) a + S2048x40.size a ≤ S2048x40.size a
  h_S2048x40 : 0 < S2048x40.numel
  dot_S2048x36_S36x128_S2048x128_1_0_0_1_n_n_wf : DotDims.WF S2048x36 S36x128 S2048x128 [1] [0] [0] [1] [] []
  dot_S2048x128_S128x512_S2048x512_1_0_0_1_n_n_wf : DotDims.WF S2048x128 S128x512 S2048x512 [1] [0] [0] [1] [] []
  dot_S2048x512_S512x40_S2048x40_1_0_0_1_n_n_wf : DotDims.WF S2048x512 S512x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x15.size a ≤ S131072x15.size a
  hwx0_0 : ∀ i : grid0.Coords, EltTy.bits .f32 = 32 ∨ (Rect.block (s := S131072x15) S2048x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x128.size a ≤ S36x128.size a
  hwx0_1 : ∀ i : grid0.Coords, EltTy.bits .f32 = 32 ∨ (Rect.block (s := S36x128) S36x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x40.size a ≤ S512x40.size a
  hwx0_5 : ∀ i : grid0.Coords, EltTy.bits .f32 = 32 ∨ (Rect.block (s := S512x40) S512x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x40.size a ≤ S131072x40.size a
  hwx0_7 : ∀ i : grid0.Coords, EltTy.bits .f32 = 32 ∨ (Rect.block (s := S131072x40) S2048x40.size (cc0_transform_7 i) (hinb0_7 i)).WholeWords (EltTy.packing .f32)

variable [Facts₀]

def dot_S2048x36_S36x128_S2048x128_1_0_0_1_n_n : DotDims S2048x36 S36x128 S2048x128 where
  lhsContracting := [1]
  rhsContracting := [0]
  lhsNonContracting := [0]
  rhsNonContracting := [1]
  lhsBatch := []
  rhsBatch := []
  wf := dot_S2048x36_S36x128_S2048x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x40_S2048x40_1_0_0_1_n_n : DotDims S2048x512 S512x40 S2048x40 where
  lhsContracting := [1]
  rhsContracting := [0]
  lhsNonContracting := [0]
  rhsNonContracting := [1]
  lhsBatch := []
  rhsBatch := []
  wf := dot_S2048x512_S512x40_S2048x40_1_0_0_1_n_n_wf

abbrev win0_0 : Pipeline.Window sig grid0 :=
  Pipeline.Window.ofSpec (Memref.whole main_arg0) S2048x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S36x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S131072x11 : Shape := ⟨2, ![131072, 11]⟩
abbrev S131072x1 : Shape := ⟨2, ![131072, 1]⟩
abbrev S131072 : Shape := ⟨1, ![131072]⟩
abbrev S_ : Shape := ⟨0, ![]⟩
abbrev S131072x3 : Shape := ⟨2, ![131072, 3]⟩
abbrev S1x4 : Shape := ⟨2, ![1, 4]⟩
abbrev S131072x4 : Shape := ⟨2, ![131072, 4]⟩
abbrev S131072x3x1 : Shape := ⟨3, ![131072, 3, 1]⟩
abbrev S1x1x7 : Shape := ⟨3, ![1, 1, 7]⟩
abbrev S131072x3x7 : Shape := ⟨3, ![131072, 3, 7]⟩
abbrev S131072x21 : Shape := ⟨2, ![131072, 21]⟩
abbrev S131072x36 : Shape := ⟨2, ![131072, 36]⟩
abbrev S131072x128 : Shape := ⟨2, ![131072, 128]⟩
abbrev S1x128 : Shape := ⟨2, ![1, 128]⟩
abbrev S131072x512 : Shape := ⟨2, ![131072, 512]⟩
abbrev S1x512 : Shape := ⟨2, ![1, 512]⟩
abbrev S131072x40 : Shape := ⟨2, ![131072, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S131072x15, .f32⟩
  | .hbm, ⟨1, _⟩ => ⟨S36x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S512x40, .f32⟩
  | .hbm, ⟨6, _⟩ => ⟨S40, .f32⟩
  | .hbm, ⟨7, _⟩ => ⟨S131072x11, .f32⟩
  | .hbm, ⟨8, _⟩ => ⟨S131072x1, .f32⟩
  | .hbm, ⟨9, _⟩ => ⟨S131072, .f32⟩
  | .hbm, ⟨10, _⟩ => ⟨S131072, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072x3, .f32⟩
  | .hbm, ⟨20, _⟩ => ⟨S131072x3, .i32⟩
  | .hbm, ⟨21, _⟩ => ⟨S_, .i32⟩
  | .hbm, ⟨22, _⟩ => ⟨S131072x3, .i32⟩
  | .hbm, ⟨23, _⟩ => ⟨S131072x3, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S131072x3, .i32⟩
  | .hbm, ⟨28, _⟩ => ⟨S131072x3, .i32⟩
  | .hbm, ⟨29, _⟩ => ⟨S_, .i32⟩
  | .hbm, ⟨30, _⟩ => ⟨S131072x3, .i32⟩
  | .hbm, ⟨31, _⟩ => ⟨S131072x3, .i32⟩
  | .hbm, ⟨32, _⟩ => ⟨S131072x1, .i32⟩
  | .hbm, ⟨33, _⟩ => ⟨S1x4, .i32⟩
  | .hbm, ⟨34, _⟩ => ⟨S131072x4, .i32⟩
  | .hbm, ⟨35, _⟩ => ⟨S131072x4, .i32⟩
  | .hbm, ⟨36, _⟩ => ⟨S131072x4, .i1⟩
  | .hbm, ⟨37, _⟩ => ⟨S131072x4, .f32⟩
  | .hbm, ⟨38, _⟩ => ⟨S131072x3x1, .i32⟩
  | .hbm, ⟨39, _⟩ => ⟨S1x1x7, .i32⟩
  | .hbm, ⟨40, _⟩ => ⟨S131072x3x7, .i32⟩
  | .hbm, ⟨41, _⟩ => ⟨S131072x3x7, .i32⟩
  | .hbm, ⟨42, _⟩ => ⟨S131072x3x7, .i1⟩
  | .hbm, ⟨43, _⟩ => ⟨S131072x3x7, .f32⟩
  | .hbm, ⟨44, _⟩ => ⟨S131072x21, .f32⟩
  | .hbm, ⟨45, _⟩ => ⟨S131072x36, .f32⟩
  | .hbm, ⟨46, _⟩ => ⟨S131072x128, .f32⟩
  | .hbm, ⟨47, _⟩ => ⟨S1x128, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S131072x512, .f32⟩
  | .hbm, ⟨54, _⟩ => ⟨S1x512, .f32⟩
  | .hbm, ⟨55, _⟩ => ⟨S131072x512, .f32⟩
  | .hbm, ⟨56, _⟩ => ⟨S131072x512, .f32⟩
  | .hbm, ⟨57, _⟩ => ⟨S_, .f32⟩
  | .hbm, ⟨58, _⟩ => ⟨S131072x512, .f32⟩
  | .hbm, ⟨59, _⟩ => ⟨S131072x512, .f32⟩
  | .hbm, ⟨60, _⟩ => ⟨S131072x40, .f32⟩
  | .hbm, ⟨61, _⟩ => ⟨S1x40, .f32⟩
  | .hbm, ⟨62, _⟩ => ⟨S131072x40, .f32⟩
  | .hbm, ⟨63, _⟩ => ⟨S131072x40, .f32⟩
  | _, _ => ⟨S131072x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v9 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v10 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call4_cst : Ref sig .tc := ⟨.hbm, 50, rfl⟩
abbrev main_call4_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call5_cst : Ref sig .tc := ⟨.hbm, 57, rfl⟩
abbrev main_call5_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]

class Facts₀ : Prop where
  slices_S131072x15_S131072x11_0_0 : S131072x15.Slices ![0, 0] S131072x11
  slices_S131072x15_S131072x1_0_11 : S131072x15.Slices ![0, 11] S131072x1
  shapeCasts_S131072x1_S131072 : S131072x1.ShapeCasts S131072
  bcast_S_S131072 : S_.BroadcastsInDim S131072 (![] : Fin 0 → Fin S131072.rank)
  slices_S131072x15_S131072x3_0_12 : S131072x15.Slices ![0, 12] S131072x3
  bcast_S_S131072x3 : S_.BroadcastsInDim S131072x3 (![] : Fin 0 → Fin S131072x3.rank)
  bcast_S131072_S131072x1_0 : S131072.BroadcastsInDim S131072x1 (![0] : Fin 1 → Fin S131072x1.rank)
  bcast_S131072x1_S131072x4_0_1 : S131072x1.BroadcastsInDim S131072x4 (![0, 1] : Fin 2 → Fin S131072x4.rank)
  bcast_S1x4_S131072x4_0_1 : S1x4.BroadcastsInDim S131072x4 (![0, 1] : Fin 2 → Fin S131072x4.rank)
  bcast_S131072x3_S131072x3x1_0_1 : S131072x3.BroadcastsInDim S131072x3x1 (![0, 1] : Fin 2 → Fin S131072x3x1.rank)
  bcast_S131072x3x1_S131072x3x7_0_1_2 : S131072x3x1.BroadcastsInDim S131072x3x7 (![0, 1, 2] : Fin 3 → Fin S131072x3x7.rank)
  bcast_S1x1x7_S131072x3x7_0_1_2 : S1x1x7.BroadcastsInDim S131072x3x7 (![0, 1, 2] : Fin 3 → Fin S131072x3x7.rank)
  shapeCasts_S131072x3x7_S131072x21 : S131072x3x7.ShapeCasts S131072x21
  concatenates_S131072x11_S131072x4_S131072x21_S131072x36_d1 : Shape.Concatenates [S131072x11, S131072x4, S131072x21] S131072x36 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S40_S1x40_1 : S40.BroadcastsInDim S1x40 (![1] : Fin 1 → Fin S1x40.rank)
  bcast_S1x40_S131072x40_0_1 : S1x40.BroadcastsInDim S131072x40 (![0, 1] : Fin 2 → Fin S131072x40.rank)
  dot_S131072x36_S36x128_S131072x128_1_0_0_1_n_n_wf : DotDims.WF S131072x36 S36x128 S131072x128 [1] [0] [0] [1] [] []
  dot_S131072x128_S128x512_S131072x512_1_0_0_1_n_n_wf : DotDims.WF S131072x128 S128x512 S131072x512 [1] [0] [0] [1] [] []
  dot_S131072x512_S512x40_S131072x40_1_0_0_1_n_n_wf : DotDims.WF S131072x512 S512x40 S131072x40 [1] [0] [0] [1] [] []

variable [Facts₀]

def dot_S131072x36_S36x128_S131072x128_1_0_0_1_n_n : DotDims S131072x36 S36x128 S131072x128 where
  lhsContracting := [1]
  rhsContracting := [0]
  lhsNonContracting := [0]
  rhsNonContracting := [1]
  lhsBatch := []
  rhsBatch := []
  wf := dot_S131072x36_S36x128_S131072x128_1_0_0_1_n_n_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x40_S131072x40_1_0_0_1_n_n : DotDims S131072x512 S512x40 S131072x40 where
  lhsContracting := [1]
  rhsContracting := [0]
  lhsNonContracting := [0]
  rhsNonContracting := [1]
  lhsBatch := []
  rhsBatch := []
  wf := dot_S131072x512_S512x40_S131072x40_1_0_0_1_n_n_wf

class Facts : Prop extends Facts₀ where

variable [Facts]
-- ==== Proof.Spec.lean ====
/-
  The network both programs compute, written once, row by row, on the extended reals.

  A state row has 15 entries: 11 board features, a hold-piece id and three next-piece ids. The ids are
  truncated to integers and clamped (the hold id into 0..3; a next id, less one, into 0..6) and then
  written as indicator vectors, so a row becomes 36 features: the 11 board features, 4 indicators of the
  hold id, and 3 x 7 indicators of the next ids. Three affine layers follow, the first two followed by
  `max(., 0)`:  36 -> 128 -> 512 -> 40.  Every sum runs over the layer's input width in its natural order.
-/
import Idealize.ShloMosaic.PureOps.Ideal
import Idealize.ShloMosaic.Lib.ValueIdx

noncomputable section

open scoped BigOperators

namespace Cert.Dqn

open Idealize.ShloMosaic Idealize.ShloMosaic.ValueIdx

/-- A signed word raised to at least `lo` and then lowered to at most `hi`. -/
def clipW (lo hi w : BitVec 32) : BitVec 32 := IntOp.minsi hi (IntOp.maxsi lo w)

/-- The indicator, as an extended real, that the word `a` is the column number `c`. -/
def hot (a : BitVec 32) (c : Nat) : EReal :=
  FloatOps.uitofp (F := Ideal) .f32 (IntOp.cmpi .eq a (BitVec.ofNat 32 c))

/-- The hold-piece id of a row: entry 11 truncated toward zero and clamped into 0..3. -/
def holdId (xr : Fin 15 → EReal) : BitVec 32 :=
  clipW 0#32 3#32 (FloatOps.fptosi (F := Ideal) (φ := .f32) 32 (xr 11))

/-- The `p`-th next-piece id of a row: entry `12 + p` truncated toward zero, less one, clamped into 0..6. -/
def nextId (xr : Fin 15 → EReal) (p : Fin 3) : BitVec 32 :=
  clipW 0#32 6#32 (IntOp.subi (FloatOps.fptosi (F := Ideal) (φ := .f32) 32 (xr ⟨12 + p.val, by omega⟩)) 1#32)

/-- The 36 features of a row: entries 0..10 as they are, then the indicators of the hold id against 0..3,
    then for each of the three next ids its indicators against 0..6. -/
def feat (xr : Fin 15 → EReal) (k : Fin 36) : EReal :=
  if h : k.val < 11 then xr ⟨k.val, by omega⟩
  else if h' : k.val < 15 then hot (holdId xr) (k.val - 11)
  else hot (nextId xr ⟨(k.val - 15) / 7, by omega⟩) ((k.val - 15) % 7)

/-- The float zero both programs compare against, kept as its word. -/
abbrev zeroF : EReal := Ideal.ofBits .f32 0x00000000#32

/-- One affine layer at output column `n`: the inputs against column `n` of the weights, plus the bias. -/
def dense {K N : Nat} (h : Fin K → EReal) (W : (⟨2, ![K, N]⟩ : Shape).Idx → EReal)
    (b : (⟨1, ![N]⟩ : Shape).Idx → EReal) (n : Fin N) : EReal :=
  (∑ k : Fin K, h k * W (ix2 k n)) + b (ix1 n)

/-- The first hidden layer of a row. -/
def hid1 (xr : Fin 15 → EReal) (W1 : (⟨2, ![36, 128]⟩ : Shape).Idx → EReal) (b1 : (⟨1, ![128]⟩ : Shape).Idx → EReal)
    (n : Fin 128) : EReal :=
  max (dense (feat xr) W1 b1 n) zeroF

/-- The second hidden layer of a row. -/
def hid2 (xr : Fin 15 → EReal) (W1 : (⟨2, ![36, 128]⟩ : Shape).Idx → EReal) (b1 : (⟨1, ![128]⟩ : Shape).Idx → EReal)
    (W2 : (⟨2, ![128, 512]⟩ : Shape).Idx → EReal) (b2 : (⟨1, ![512]⟩ : Shape).Idx → EReal) (n : Fin 512) : EReal :=
  max (dense (hid1 xr W1 b1) W2 b2 n) zeroF

/-- The 40 action values of a row. -/
def qrow (xr : Fin 15 → EReal) (W1 : (⟨2, ![36, 128]⟩ : Shape).Idx → EReal) (b1 : (⟨1, ![128]⟩ : Shape).Idx → EReal)
    (W2 : (⟨2, ![128, 512]⟩ : Shape).Idx → EReal) (b2 : (⟨1, ![512]⟩ : Shape).Idx → EReal)
    (W4 : (⟨2, ![512, 40]⟩ : Shape).Idx → EReal) (b4 : (⟨1, ![40]⟩ : Shape).Idx → EReal) (n : Fin 40) : EReal :=
  dense (hid2 xr W1 b1 W2 b2) W4 b4 n

/-- Row `r` of a batch of `R` states. -/
abbrev rowOf {R : Nat} (x : (⟨2, ![R, 15]⟩ : Shape).Idx → EReal) (r : Fin R) : Fin 15 → EReal := fun c => x (ix2 r c)

/-- The whole result: entry `(r, n)` is action value `n` of state row `r`. -/
def qvals (x : (⟨2, ![131072, 15]⟩ : Shape).Idx → EReal) (W1 : (⟨2, ![36, 128]⟩ : Shape).Idx → EReal)
    (b1 : (⟨1, ![128]⟩ : Shape).Idx → EReal) (W2 : (⟨2, ![128, 512]⟩ : Shape).Idx → EReal)
    (b2 : (⟨1, ![512]⟩ : Shape).Idx → EReal) (W4 : (⟨2, ![512, 40]⟩ : Shape).Idx → EReal)
    (b4 : (⟨1, ![40]⟩ : Shape).Idx → EReal) : (⟨2, ![131072, 40]⟩ : Shape).Idx → EReal :=
  fun i => qrow (rowOf x (i 0)) W1 b1 W2 b2 W4 b4 (i 1)

end Cert.Dqn

end
-- ==== Proof.LibKeepdims.lean ====
/-
  Two layout readings that every row statistic kept as a column needs: a vector of `a` entries
  viewed as an `a × 1` column reads its entry `i` at `(i, 0)`, and an `a × 1` column broadcast to
  `a × b` reads, at `(p, c)`, the column's entry of row `p` — the column is repeated along the
  second axis. Both are stated over literal shapes with the indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to an `[a, 1]` column reads, at `(i, u)`, the vector at `i`, whatever the unit
    coordinate `u`: both indices sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the first axis is
    carried (or, when `a = 1`, is the unit axis read at `0`, which is `p`), the unit second axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelFeat.lean ====
/-
  The kernel's feature block, read entry by entry.

  A kernel instance holds `R` state rows. It builds their 36 features with vector operations: the
  board features are a slice; the hold id column is cut out, flattened, truncated to integers and
  clamped, then stood up as a column again, repeated along 4 lanes and compared with the lane number;
  the three next ids are cut out together, truncated, lowered by one and clamped, and each of their
  three columns is repeated along 7 lanes and compared with the lane number; the comparison bits are
  widened to words and converted to floats, and the pieces are laid side by side.
  Read at row `p` and column `k` this is feature `k` of row `p` as Spec.lean defines it.
-/
import Idealize.ShloMosaic.Lib.ValueIdx
import Idealize.ShloMosaic.Lib.Pipeline.Value
import Idealize.ShloMosaic.Lib.KernelVsHost
import proofs.«176917_j40776419508448_1_alg».proof.Proof.Spec
import proofs.«176917_j40776419508448_1_alg».proof.Proof.LibKeepdims

noncomputable section

namespace Cert.Dqn.Kern

open Idealize.ShloMosaic Idealize.ShloMosaic.ValueIdx Cert.Dqn Cert.LibKeepdims

variable {R : Nat}

/-- A comparison bit widened to a word and converted signed is the bit converted unsigned: 0 or 1. -/
theorem bit_float (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_cast

/-- The clamped hold id of row `p`, read off the kernel's flattened column. -/
theorem holdvec_apply (v : FVec Ideal ⟨2, ![R, 15]⟩ .f32)
    (s11 : (⟨2, ![R, 15]⟩ : Shape).Slices ![0, 11] ⟨2, ![R, 1]⟩) (c1 : (⟨2, ![R, 1]⟩ : Shape).ShapeCasts ⟨1, ![R]⟩) (p : Fin R) :
    minsi (broadcast ⟨1, ![R]⟩ 3#32) (maxsi (broadcast ⟨1, ![R]⟩ 0#32)
      (fptosi 32 (shapeCast ⟨1, ![R]⟩ (extractStridedSlice ⟨2, ![R, 1]⟩ ![0, 11] v s11) c1))) (ix1 p) = holdId (rowOf v p) := by
  show IntOp.minsi 3#32 (IntOp.maxsi 0#32 (FloatOps.fptosi 32
    (shapeCast ⟨1, ![R]⟩ (extractStridedSlice ⟨2, ![R, 1]⟩ ![0, 11] v s11) c1 (ix1 p)))) = _
  rw [shapeCast_apply _ c1 (ix1 p) (ix2 p (0 : Fin 1)) (by
    rw [Shape.rowMajor_val_two, Shape.rowMajor_val_one]; show p.val * 1 + 0 = p.val; omega)]
  rw [extractStridedSlice_apply ![0, 11] v s11 (ix2 p (0 : Fin 1)) (ix2 p (11 : Fin 15)) (fun a => by
    match a with
    | ⟨0, _⟩ => (show p.val = 0 + p.val; omega)
    | ⟨1, _⟩ => rfl)]
  rfl

/-- The clamped next id number `j` of row `p`, read off the kernel's three id columns. -/
theorem nextvec_apply (v : FVec Ideal ⟨2, ![R, 15]⟩ .f32)
    (s12 : (⟨2, ![R, 15]⟩ : Shape).Slices ![0, 12] ⟨2, ![R, 3]⟩) (p : Fin R) (j : Fin 3) :
    minsi (broadcast ⟨2, ![R, 3]⟩ 6#32) (maxsi (broadcast ⟨2, ![R, 3]⟩ 0#32)
      (subi (fptosi 32 (extractStridedSlice ⟨2, ![R, 3]⟩ ![0, 12] v s12)) (broadcast ⟨2, ![R, 3]⟩ 1#32))) (ix2 p j)
      = nextId (rowOf v p) j := by
  show IntOp.minsi 6#32 (IntOp.maxsi 0#32 (IntOp.subi (FloatOps.fptosi 32
    (extractStridedSlice ⟨2, ![R, 3]⟩ ![0, 12] v s12 (ix2 p j))) 1#32)) = _
  rw [extractStridedSlice_apply ![0, 12] v s12 (ix2 p j) (ix2 p (⟨12 + j.val, by omega⟩ : Fin 15)) (fun a => by
    match a with
    | ⟨0, _⟩ => (show p.val = 0 + p.val; omega)
    | ⟨1, _⟩ => rfl)]
  rfl

/-- A vector of ids stood up as a column, repeated along `C` lanes and compared with the lane number:
    at row `p`, lane `c`, the indicator that row `p`'s id is `c`. -/
theorem colhot_apply {C : Nat} (w : IVec ⟨1, ![R]⟩ 32)
    (c2 : (⟨1, ![R]⟩ : Shape).ShapeCasts ⟨2, ![R, 1]⟩) (bC : (⟨2, ![R, 1]⟩ : Shape).Broadcasts ⟨2, ![R, C]⟩)
    (iC : (⟨2, ![R, C]⟩ : Shape).Iotas .tc 32 [1]) (lt : 1 < 32) (p : Fin R) (c : Fin C) :
    (sitofp .f32 (extui 32 (cmpi .eq (broadcastTo ⟨2, ![R, C]⟩ (shapeCast ⟨2, ![R, 1]⟩ w c2) bC)
      (iota .tc ⟨2, ![R, C]⟩ 32 [1] iC)) lt) : FVec Ideal ⟨2, ![R, C]⟩ .f32) (ix2 p c) = hot (w (ix1 p)) c.val := by
  show FloatOps.sitofp (F := Ideal) .f32 ((IntOp.cmpi .eq (broadcastTo ⟨2, ![R, C]⟩ (shapeCast ⟨2, ![R, 1]⟩ w c2) bC (ix2 p c))
    (iota .tc ⟨2, ![R, C]⟩ 32 [1] iC (ix2 p c))).setWidth 32) = _
  rw [bit_float, broadcastTo_a1_ab_apply, shapeCast_a_a1_apply, iota_single_apply]
  rfl

/-- Column `j` of a three-column array of ids, repeated along `C` lanes and compared with the lane number. -/
theorem slicehot_apply {C : Nat} (w : IVec ⟨2, ![R, 3]⟩ 32) (j : Nat) (hj : j < 3)
    (t : (⟨2, ![R, 3]⟩ : Shape).Slices ![0, j] ⟨2, ![R, 1]⟩) (bC : (⟨2, ![R, 1]⟩ : Shape).Broadcasts ⟨2, ![R, C]⟩)
    (iC : (⟨2, ![R, C]⟩ : Shape).Iotas .tc 32 [1]) (lt : 1 < 32) (p : Fin R) (c : Fin C) :
    (sitofp .f32 (extui 32 (cmpi .eq (broadcastTo ⟨2, ![R, C]⟩ (extractStridedSlice ⟨2, ![R, 1]⟩ ![0, j] w t) bC)
      (iota .tc ⟨2, ![R, C]⟩ 32 [1] iC)) lt) : FVec Ideal ⟨2, ![R, C]⟩ .f32) (ix2 p c) = hot (w (ix2 p (⟨j, hj⟩ : Fin 3))) c.val := by
  show FloatOps.sitofp (F := Ideal) .f32 ((IntOp.cmpi .eq (broadcastTo ⟨2, ![R, C]⟩ (extractStridedSlice ⟨2, ![R, 1]⟩ ![0, j] w t) bC (ix2 p c))
    (iota .tc ⟨2, ![R, C]⟩ 32 [1] iC (ix2 p c))).setWidth 32) = _
  rw [bit_float, broadcastTo_a1_ab_apply, iota_single_apply]
  rw [extractStridedSlice_apply ![0, j] w t (ix2 p (0 : Fin 1)) (ix2 p (⟨j, hj⟩ : Fin 3)) (fun a => by
    match a with
    | ⟨0, _⟩ => (show p.val = 0 + p.val; omega)
    | ⟨1, _⟩ => (show j = j + 0; omega))]
  rfl

/-- Three 7-lane pieces laid side by side: lane `q` of the 21 is lane `q % 7` of piece `q / 7`. Stated for pieces
    whose row `p` is known as a function `g` of the piece and the lane. -/
theorem nextcat_apply (f0 f1 f2 : (⟨2, ![R, 7]⟩ : Shape).Idx → EReal)
    (cc3 : Shape.Concatenates [(⟨2, ![R, 7]⟩ : Shape), ⟨2, ![R, 7]⟩, ⟨2, ![R, 7]⟩] ⟨2, ![R, 21]⟩ 1)
    (p : Fin R) (q : Fin 21) (g : Fin 3 → Fin 7 → EReal)
    (h0 : ∀ c, f0 (ix2 p c) = g 0 c) (h1 : ∀ c, f1 (ix2 p c) = g 1 c) (h2 : ∀ c, f2 (ix2 p c) = g 2 c) :
    concatenate ⟨2, ![R, 21]⟩ 1 [⟨⟨2, ![R, 7]⟩, f0⟩, ⟨⟨2, ![R, 7]⟩, f1⟩, ⟨⟨2, ![R, 7]⟩, f2⟩] cc3 (ix2 p q)
      = g ⟨q.val / 7, by omega⟩ ⟨q.val % 7, by omega⟩ := by
  have hq : q.val < 21 := q.isLt
  by_cases a0 : q.val < 7
  · refine Eq.trans (concatenate_apply_piece (1 : Fin 2) _ _ (ix2 p q) 0 (by simp) ⟨2, ![R, 7]⟩ f0 rfl rfl 0 rfl
      (ix2 p (⟨q.val, a0⟩ : Fin 7)) (fun b hb => ?_) ?_) ((h0 _).trans ?_)
    · match b with
      | ⟨0, _⟩ => rfl
      | ⟨1, _⟩ => exact absurd rfl hb
    · show 0 + q.val = q.val; omega
    · exact congrArg₂ g (Fin.ext (by show 0 = q.val / 7; omega)) (Fin.ext (by show q.val = q.val % 7; omega))
  · by_cases a1 : q.val < 14
    · refine Eq.trans (concatenate_apply_piece (1 : Fin 2) _ _ (ix2 p q) 1 (by simp) ⟨2, ![R, 7]⟩ f1 rfl rfl 7 rfl
        (ix2 p (⟨q.val - 7, by omega⟩ : Fin 7)) (fun b hb => ?_) ?_) ((h1 _).trans ?_)
      · match b with
        | ⟨0, _⟩ => rfl
        | ⟨1, _⟩ => exact absurd rfl hb
      · show 7 + (q.val - 7) = q.val; omega
      · exact congrArg₂ g (Fin.ext (by show 1 = q.val / 7; omega)) (Fin.ext (by show q.val - 7 = q.val % 7; omega))
    · refine Eq.trans (concatenate_apply_piece (1 : Fin 2) _ _ (ix2 p q) 2 (by simp) ⟨2, ![R, 7]⟩ f2 rfl rfl 14 rfl
        (ix2 p (⟨q.val - 14, by omega⟩ : Fin 7)) (fun b hb => ?_) ?_) ((h2 _).trans ?_)
      · match b with
        | ⟨0, _⟩ => rfl
        | ⟨1, _⟩ => exact absurd rfl hb
      · show 14 + (q.val - 14) = q.val; omega
      · exact congrArg₂ g (Fin.ext (by show 2 = q.val / 7; omega)) (Fin.ext (by show q.val - 14 = q.val % 7; omega))

/-- The kernel's clamped hold ids of all rows. -/
abbrev holdVec (v : FVec Ideal ⟨2, ![R, 15]⟩ .f32)
    (s11 : (⟨2, ![R, 15]⟩ : Shape).Slices ![0, 11] ⟨2, ![R, 1]⟩) (c1 : (⟨2, ![R, 1]⟩ : Shape).ShapeCasts ⟨1, ![R]⟩) : IVec ⟨1, ![R]⟩ 32 :=
  minsi (broadcast ⟨1, ![R]⟩ 3#32) (maxsi (broadcast ⟨1, ![R]⟩ 0#32)
    (fptosi 32 (shapeCast ⟨1, ![R]⟩ (extractStridedSlice ⟨2, ![R, 1]⟩ ![0, 11] v s11) c1)))

/-- The kernel's clamped next ids of all rows, three to a row. -/
abbrev nextVec (v : FVec Ideal ⟨2, ![R, 15]⟩ .f32)
    (s12 : (⟨2, ![R, 15]⟩ : Shape).Slices ![0, 12] ⟨2, ![R, 3]⟩) : IVec ⟨2, ![R, 3]⟩ 32 :=
  minsi (broadcast ⟨2, ![R, 3]⟩ 6#32) (maxsi (broadcast ⟨2, ![R, 3]⟩ 0#32)
    (subi (fptosi 32 (extractStridedSlice ⟨2, ![R, 3]⟩ ![0, 12] v s12)) (broadcast ⟨2, ![R, 3]⟩ 1#32)))

/-- A column of ids repeated along `C` lanes, compared with the lane number, as floats. -/
abbrev hotLanes {C : Nat} (w : IVec ⟨2, ![R, 1]⟩ 32) (bC : (⟨2, ![R, 1]⟩ : Shape).Broadcasts ⟨2, ![R, C]⟩)
    (iC : (⟨2, ![R, C]⟩ : Shape).Iotas .tc 32 [1]) (lt : 1 < 32) : FVec Ideal ⟨2, ![R, C]⟩ .f32 :=
  sitofp .f32 (extui 32 (cmpi .eq (broadcastTo ⟨2, ![R, C]⟩ w bC) (iota .tc ⟨2, ![R, C]⟩ 32 [1] iC)) lt)

/-- THE FEATURE BLOCK at row `p`, column `k`, is feature `k` of row `p`. The block is spelt as the kernel builds it;
    the shape facts its operations cite are arbitrary proofs. -/
theorem featBlock_apply (v : FVec Ideal ⟨2, ![R, 15]⟩ .f32)
    (s0 : (⟨2, ![R, 15]⟩ : Shape).Slices ![0, 0] ⟨2, ![R, 11]⟩)
    (s11 : (⟨2, ![R, 15]⟩ : Shape).Slices ![0, 11] ⟨2, ![R, 1]⟩) (c1 : (⟨2, ![R, 1]⟩ : Shape).ShapeCasts ⟨1, ![R]⟩)
    (s12 : (⟨2, ![R, 15]⟩ : Shape).Slices ![0, 12] ⟨2, ![R, 3]⟩)
    (c2 : (⟨1, ![R]⟩ : Shape).ShapeCasts ⟨2, ![R, 1]⟩) (b4 : (⟨2, ![R, 1]⟩ : Shape).Broadcasts ⟨2, ![R, 4]⟩)
    (i4 : (⟨2, ![R, 4]⟩ : Shape).Iotas .tc 32 [1]) (lt : 1 < 32)
    (b7 : (⟨2, ![R, 1]⟩ : Shape).Broadcasts ⟨2, ![R, 7]⟩) (i7 : (⟨2, ![R, 7]⟩ : Shape).Iotas .tc 32 [1])
    (t0 : (⟨2, ![R, 3]⟩ : Shape).Slices ![0, 0] ⟨2, ![R, 1]⟩) (t1 : (⟨2, ![R, 3]⟩ : Shape).Slices ![0, 1] ⟨2, ![R, 1]⟩)
    (t2 : (⟨2, ![R, 3]⟩ : Shape).Slices ![0, 2] ⟨2, ![R, 1]⟩)
    (cc3 : Shape.Concatenates [(⟨2, ![R, 7]⟩ : Shape), ⟨2, ![R, 7]⟩, ⟨2, ![R, 7]⟩] ⟨2, ![R, 21]⟩ 1)
    (cc : Shape.Concatenates [(⟨2, ![R, 11]⟩ : Shape), ⟨2, ![R, 4]⟩, ⟨2, ![R, 21]⟩] ⟨2, ![R, 36]⟩ 1)
    (p : Fin R) (k : Fin 36) :
    concatenate ⟨2, ![R, 36]⟩ 1
      [⟨⟨2, ![R, 11]⟩, extractStridedSlice ⟨2, ![R, 11]⟩ ![0, 0] v s0⟩,
       ⟨⟨2, ![R, 4]⟩, hotLanes (shapeCast ⟨2, ![R, 1]⟩ (holdVec v s11 c1) c2) b4 i4 lt⟩,
       ⟨⟨2, ![R, 21]⟩, concatenate ⟨2, ![R, 21]⟩ 1
          [⟨⟨2, ![R, 7]⟩, hotLanes (extractStridedSlice ⟨2, ![R, 1]⟩ ![0, 0] (nextVec v s12) t0) b7 i7 lt⟩,
           ⟨⟨2, ![R, 7]⟩, hotLanes (extractStridedSlice ⟨2, ![R, 1]⟩ ![0, 1] (nextVec v s12) t1) b7 i7 lt⟩,
           ⟨⟨2, ![R, 7]⟩, hotLanes (extractStridedSlice ⟨2, ![R, 1]⟩ ![0, 2] (nextVec v s12) t2) b7 i7 lt⟩] cc3⟩] cc (ix2 p k)
      = feat (rowOf v p) k := by
  unfold feat
  have hk : k.val < 36 := k.isLt
  by_cases h1 : k.val < 11
  · rw [dif_pos h1]
    refine Eq.trans (concatenate_apply_piece (1 : Fin 2) _ _ (ix2 p k) 0 (by simp) ⟨2, ![R, 11]⟩ _ rfl rfl 0 rfl
      (ix2 p (⟨k.val, h1⟩ : Fin 11)) (fun b hb => ?_) ?_) ?_
    · match b with
      | ⟨0, _⟩ => rfl
      | ⟨1, _⟩ => exact absurd rfl hb
    · show 0 + k.val = k.val; omega
    · exact extractStridedSlice_apply ![0, 0] v s0 (ix2 p (⟨k.val, h1⟩ : Fin 11)) (ix2 p (⟨k.val, by omega⟩ : Fin 15)) (fun a => by
        match a with
        | ⟨0, _⟩ => (show p.val = 0 + p.val; omega)
        | ⟨1, _⟩ => (show k.val = 0 + k.val; omega))
  · rw [dif_neg h1]
    by_cases h2 : k.val < 15
    · rw [dif_pos h2]
      refine Eq.trans (concatenate_apply_piece (1 : Fin 2) _ _ (ix2 p k) 1 (by simp) ⟨2, ![R, 4]⟩ _ rfl rfl 11 rfl
        (ix2 p (⟨k.val - 11, by omega⟩ : Fin 4)) (fun b hb => ?_) ?_) ?_
      · match b with
        | ⟨0, _⟩ => rfl
        | ⟨1, _⟩ => exact absurd rfl hb
      · show 11 + (k.val - 11) = k.val; omega
      · exact (colhot_apply (holdVec v s11 c1) c2 b4 i4 lt p ⟨k.val - 11, by omega⟩).trans
          (congrArg (hot · (k.val - 11)) (holdvec_apply v s11 c1 p))
    · rw [dif_neg h2]
      refine Eq.trans (concatenate_apply_piece (1 : Fin 2) _ _ (ix2 p k) 2 (by simp) ⟨2, ![R, 21]⟩ _ rfl rfl 15 rfl
        (ix2 p (⟨k.val - 15, by omega⟩ : Fin 21)) (fun b hb => ?_) ?_) ?_
      · match b with
        | ⟨0, _⟩ => rfl
        | ⟨1, _⟩ => exact absurd rfl hb
      · show 15 + (k.val - 15) = k.val; omega
      · exact nextcat_apply _ _ _ cc3 p ⟨k.val - 15, by omega⟩ (fun j c => hot (nextId (rowOf v p) j) c.val)
          (fun c => (slicehot_apply (nextVec v s12) 0 (by omega) t0 b7 i7 lt p c).trans
            (congrArg (hot · c.val) (nextvec_apply v s12 p 0)))
          (fun c => (slicehot_apply (nextVec v s12) 1 (by omega) t1 b7 i7 lt p c).trans
            (congrArg (hot · c.val) (nextvec_apply v s12 p 1)))
          (fun c => (slicehot_apply (nextVec v s12) 2 (by omega) t2 b7 i7 lt p c).trans
            (congrArg (hot · c.val) (nextvec_apply v s12 p 2)))

end Cert.Dqn.Kern

end
-- ==== Proof.LibDense.lean ====
/-
  A plain matrix product read at an entry. For an `M x K` left operand and a `K x N` right operand
  contracted over the left's second and the right's first axis, with no batch axis, the product
  accumulated into zero reads, at `(p, n)`, the sum over `k` of `A (p, k) * B (k, n)` on the
  extended reals. And a bias: a vector of `N` entries viewed as one row and repeated down `M` rows
  reads, at `(p, n)`, its entry `n`.
-/
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

variable {M K N : Nat} {φ₁ φ₂ : FTy}

/-- The dimension numbers "rows by columns": contract left axis 1 with right axis 0, keep left axis 0 and right axis 1. -/
abbrev rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem lhs_row (i : (⟨2, ![M, N]⟩ : Shape).Idx) (q : (rc wf).contr.Idx) : ((rc wf).lhsIdx i q 0).val = (i 0).val := by
  unfold DotDims.lhsIdx
  rw [dif_neg (show ¬(0 : Fin 2) ∈ (rc wf).lhsBatch from List.not_mem_nil), dif_pos (show (0 : Fin 2) ∈ (rc wf).lhsNonContracting from List.mem_singleton.mpr rfl)]
  rfl

theorem lhs_col (i : (⟨2, ![M, N]⟩ : Shape).Idx) (q : (rc wf).contr.Idx) : ((rc wf).lhsIdx i q 1).val = (q ⟨0, Nat.one_pos⟩).val :=
  (rc wf).lhsIdx_val_of_single rfl i q

theorem rhs_row (i : (⟨2, ![M, N]⟩ : Shape).Idx) (q : (rc wf).contr.Idx) : ((rc wf).rhsIdx i q 0).val = (q ⟨0, Nat.one_pos⟩).val :=
  (rc wf).rhsIdx_val_of_single rfl i q

theorem rhs_col (i : (⟨2, ![M, N]⟩ : Shape).Idx) (q : (rc wf).contr.Idx) : ((rc wf).rhsIdx i q 1).val = (i 1).val := by
  unfold DotDims.rhsIdx
  rw [dif_neg (show ¬(1 : Fin 2) ∈ (rc wf).rhsBatch from List.not_mem_nil), dif_pos (show (1 : Fin 2) ∈ (rc wf).rhsNonContracting from List.mem_singleton.mpr rfl)]
  rfl

/-- The contraction's sum, re-indexed by the one contracted coordinate. -/
theorem sum_rc (A : FVec Ideal ⟨2, ![M, K]⟩ φ₁) (B : FVec Ideal ⟨2, ![K, N]⟩ φ₂) (p : Fin M) (n : Fin N) :
    (∑ q : (rc wf).contr.Idx, A ((rc wf).lhsIdx (ix2 p n) q) * B ((rc wf).rhsIdx (ix2 p n) q))
      = ∑ k : Fin K, A (ix2 p k) * B (ix2 k n) := by
  rw [← Equiv.sum_comp (contrEquiv1 (rc wf) K rfl rfl).symm]
  refine Finset.sum_congr rfl fun k _ => ?_
  have hk := contrEquiv1_symm_val (rc wf) K rfl rfl k
  have el : (rc wf).lhsIdx (ix2 p n) ((contrEquiv1 (rc wf) K rfl rfl).symm k) = ix2 p k := funext fun a => Fin.ext (by
    match a with
    | ⟨0, _⟩ => exact lhs_row wf _ _
    | ⟨1, _⟩ => exact (lhs_col wf _ _).trans hk)
  have er : (rc wf).rhsIdx (ix2 p n) ((contrEquiv1 (rc wf) K rfl rfl).symm k) = ix2 k n := funext fun a => Fin.ext (by
    match a with
    | ⟨0, _⟩ => exact (rhs_row wf _ _).trans hk
    | ⟨1, _⟩ => exact rhs_col wf _ _)
  rw [el, er]

/-- A kernel's product accumulated into the zero splat, at `(p, n)`. -/
theorem matmul_zero_apply (A : FVec Ideal ⟨2, ![M, K]⟩ φ₁) (B : FVec Ideal ⟨2, ![K, N]⟩ φ₂) (p : Fin M) (n : Fin N) :
    FloatOps.matmul (rc wf) none A B (constant ⟨2, ![M, N]⟩ .f32 0x00000000#32) (ix2 p n)
      = ∑ k : Fin K, A (ix2 p k) * B (ix2 k n) := by
  rw [Ideal.matmul_constant_zero_apply]
  exact sum_rc wf A B p n

/-- A vector of `N` entries cast to one row and broadcast down `M` rows reads its entry `n` at `(p, n)`. -/
theorem biasrow_apply {α : Type} {M N : Nat} (b : (⟨1, ![N]⟩ : Shape).Idx → α)
    (h1 : (⟨1, ![N]⟩ : Shape).ShapeCasts ⟨2, ![1, N]⟩) (hb : (⟨2, ![1, N]⟩ : Shape).Broadcasts ⟨2, ![M, N]⟩)
    (p : Fin M) (n : Fin N) :
    broadcastTo ⟨2, ![M, N]⟩ (shapeCast ⟨2, ![1, N]⟩ b h1) hb (ix2 p n) = b (ix1 n) := by
  refine (broadcastTo_apply (shapeCast ⟨2, ![1, N]⟩ b h1) hb (ix2 p n) (ix2 (0 : Fin 1) n) (fun a => ?_)).trans ?_
  · match a with
    | ⟨0, _⟩ => rfl
    | ⟨1, _⟩ =>
      show n.val = if N = 1 then 0 else n.val
      split
      · have := n.isLt; omega
      · rfl
  · exact shapeCast_apply b h1 (ix2 (0 : Fin 1) n) (ix1 n) (by
      rw [Shape.rowMajor_val_two, Shape.rowMajor_val_one]; show n.val = 0 * N + n.val; omega)

end Cert.LibDense

end
-- ==== Proof.KernelPay.lean ====
/-
  What one kernel instance stores, entry by entry: the action values of its rows.

  The body's arithmetic is three matrix products into zero accumulators, each followed by a bias laid along
  the rows, the first two by a maximum with zero; the operands are narrowed to bf16 first, which changes
  nothing on the extended reals. Read at row `p`, column `n`, the stored value is action value `n` of the
  block's row `p` (Spec.lean's `qrow`).
-/
import proofs.«176917_j40776419508448_1_alg».proof.Proof.Gen.KernelIdeal.Skeleton
import proofs.«176917_j40776419508448_1_alg».proof.Proof.KernelFeat
import proofs.«176917_j40776419508448_1_alg».proof.Proof.LibDense

noncomputable section

open scoped BigOperators

namespace Cert.Dqn.Pay

open Cert.KernelIdeal Cert.KernelIdeal.Gen
open Idealize.ShloMosaic Idealize.ShloMosaic.ValueIdx Cert.Dqn Cert.LibDense

/-- The first product: the features of row `p` against column `n` of the first weights. -/
theorem pay2_apply (v0 : Vec Ideal S2048x15 .f32) (v42 : Vec Ideal S36x128 .f32) (p : Fin 2048) (n : Fin 128) :
    k0_pay2 (F := Ideal) v0 v42 (ix2 p n) = ∑ k : Fin 36, feat (rowOf v0 p) k * v42 (ix2 k n) := by
  unfold k0_pay2
  refine (matmul_zero_apply _ _ _ p n).trans ?_
  exact Finset.sum_congr rfl fun k _ => congrArg (· * v42 (ix2 k n))
    (Kern.featBlock_apply v0 slices_S2048x15_o0_0_S2048x11 slices_S2048x15_o0_11_S2048x1 shapeCasts_S2048x1_S2048
      slices_S2048x15_o0_12_S2048x3 shapeCasts_S2048_S2048x1 broadcasts_S2048x1_S2048x4 iota_S2048x4_d1_w32 natLt_1_32
      broadcasts_S2048x1_S2048x7 iota_S2048x7_d1_w32 slices_S2048x3_o0_0_S2048x1 slices_S2048x3_o0_1_S2048x1
      slices_S2048x3_o0_2_S2048x1 concatenates_S2048x7_S2048x7_S2048x7_S2048x21_d1
      concatenates_S2048x11_S2048x4_S2048x21_S2048x36_d1 p k)

/-- The first bias, laid along the rows. -/
theorem pay3_apply (v45 : Vec Ideal S128 .f32) (p : Fin 2048) (n : Fin 128) :
    k0_pay3 (F := Ideal) v45 (ix2 p n) = v45 (ix1 n) := by
  unfold k0_pay3
  exact biasrow_apply v45 _ _ p n

/-- The rest of the body, from the first layer's product and bias on. -/
theorem pay1_apply (v44 v47 : FVec Ideal S2048x128 .f32) (v51 : Vec Ideal S128x512 .f32) (v55 : Vec Ideal S512 .f32)
    (v61 : Vec Ideal S512x40 .f32) (v65 : Vec Ideal S40 .f32) (p : Fin 2048) (n : Fin 40) :
    k0_pay1 (F := Ideal) v44 v47 v51 v55 v61 v65 (ix2 p n) =
      dense (fun j : Fin 512 => max (dense (fun i : Fin 128 => max (v44 (ix2 p i) + v47 (ix2 p i)) zeroF) v51 v55 j) zeroF)
        v61 v65 n := by
  unfold k0_pay1 dense
  refine congrArg₂ (· + ·) ?_ (biasrow_apply v65 _ _ p n)
  refine (matmul_zero_apply _ _ _ p n).trans ?_
  refine Finset.sum_congr rfl fun j _ => congrArg (· * v61 (ix2 j n)) ?_
  refine congrArg (max · zeroF) ?_
  refine congrArg₂ (· + ·) ?_ (biasrow_apply v55 _ _ p j)
  refine (matmul_zero_apply _ _ _ p j).trans ?_
  exact Finset.sum_congr rfl fun i _ => rfl

/-- THE STORED BLOCK at row `p`, column `n`: action value `n` of row `p` of the instance's state block. -/
theorem stored_apply (x0 : Vec Ideal S2048x15 .f32) (x1 : Vec Ideal S36x128 .f32) (x2 : Vec Ideal S128 .f32)
    (x3 : Vec Ideal S128x512 .f32) (x4 : Vec Ideal S512 .f32) (x5 : Vec Ideal S512x40 .f32) (x6 : Vec Ideal S40 .f32)
    (p : Fin 2048) (n : Fin 40) :
    k0_pay1 (F := Ideal) (k0_pay2 x0 x1) (k0_pay3 x2) x3 x4 x5 x6 (ix2 p n) = qrow (rowOf x0 p) x1 x2 x3 x4 x5 x6 n := by
  rw [pay1_apply]
  unfold qrow hid2 hid1
  simp only [pay2_apply, pay3_apply]
  rfl

end Cert.Dqn.Pay

end
-- ==== Proof.KernelValue.lean ====
/-
  The kernel's result array, whole: after the run it holds the network's value on the whole batch.

  The grid has 64 points. Point `t` stages rows `2048 t … 2048 t + 2047` of the states and the whole of every
  weight and bias, and writes back rows `2048 t … 2048 t + 2047` of the result. What it writes back is, entry
  by entry, the action values of its rows (KernelPay.lean), and row `p` of its state block is row
  `2048 t + p` of the batch: so the block it writes is the same block of the whole-batch result. Every row
  lies in the block of point `row / 2048`, so the blocks fill the array.
-/
import proofs.«176917_j40776419508448_1_alg».proof.Proof.Gen.KernelIdeal.Value
import proofs.«176917_j40776419508448_1_alg».proof.Proof.KernelPay

noncomputable section

namespace Cert.Dqn.KValue

open Cert.KernelIdeal Cert.KernelIdeal.Gen Cert.KernelIdeal.Value
open Idealize.ShloMosaic Idealize.ShloMosaic.TcCoe Idealize.SL.Sem Idealize.ShloMosaic.ValueIdx Cert.Dqn
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The network's value on the batch, of the argument arrays as the region finds them. -/
abbrev Q (c : Dev nD) : S131072x40.Idx → EReal :=
  qvals (V m c main_arg0) (V m c main_arg1) (V m c main_arg2) (V m c main_arg3) (V m c main_arg4) (V m c main_arg5) (V m c main_arg6)

/-- The printed index maps over the 64 points: the state and result windows move one block of rows per point,
    every other window stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of point `t`'s state block is row `2048 t + p` of the batch. -/
theorem iblk0_apply (c : Dev nD) (t : Fin cfg0.N) (p : Fin 2048) (k : Fin 15) (r : Fin 131072) (hr : r.val = t.val * 2048 + p.val) :
    (iblk m c 0 t : Vec Ideal S2048x15 .f32) (ix2 p k) = (V m c main_arg0 : S131072x15.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 15 + 1 * k.val = k.val; rw [e1]; omega

/-! Each weight and bias window stages its whole array at every point: its block is the array. -/

theorem iblk1_eq (c : Dev nD) (t : Fin cfg0.N) : (iblk m c 1 t : Vec Ideal S36x128 .f32) = (V m c main_arg1 : S36x128.Idx → EReal) := by
  have e0 : win0_1.index t (0 : Fin 2) = 0 := by have := idx_facts t; tauto
  have e1 : win0_1.index t (1 : Fin 2) = 0 := by have := idx_facts t; tauto
  unfold iblk
  funext y
  rw [View.read_apply]
  show V m c main_arg1 _ = V m c main_arg1 y
  congr 1
  funext a
  apply Fin.ext
  match a with
  | ⟨0, _⟩ => show win0_1.index t (0 : Fin 2) * 36 + 1 * (y 0).val = (y 0).val; rw [e0]; omega
  | ⟨1, _⟩ => show win0_1.index t (1 : Fin 2) * 128 + 1 * (y 1).val = (y 1).val; rw [e1]; omega

theorem iblk2_eq (c : Dev nD) (t : Fin cfg0.N) : (iblk m c 2 t : Vec Ideal S128 .f32) = (V m c main_arg2 : S128.Idx → EReal) := by
  have e0 : win0_2.index t (0 : Fin 1) = 0 := by have := idx_facts t; tauto
  unfold iblk
  funext y
  rw [View.read_apply]
  show V m c main_arg2 _ = V m c main_arg2 y
  congr 1
  funext a
  apply Fin.ext
  match a with
  | ⟨0, _⟩ => show win0_2.index t (0 : Fin 1) * 128 + 1 * (y 0).val = (y 0).val; rw [e0]; omega

theorem iblk3_eq (c : Dev nD) (t : Fin cfg0.N) : (iblk m c 3 t : Vec Ideal S128x512 .f32) = (V m c main_arg3 : S128x512.Idx → EReal) := by
  have e0 : win0_3.index t (0 : Fin 2) = 0 := by have := idx_facts t; tauto
  have e1 : win0_3.index t (1 : Fin 2) = 0 := by have := idx_facts t; tauto
  unfold iblk
  funext y
  rw [View.read_apply]
  show V m c main_arg3 _ = V m c main_arg3 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

theorem iblk4_eq (c : Dev nD) (t : Fin cfg0.N) : (iblk m c 4 t : Vec Ideal S512 .f32) = (V m c main_arg4 : S512.Idx → EReal) := by
  have e0 : win0_4.index t (0 : Fin 1) = 0 := by have := idx_facts t; tauto
  unfold iblk
  funext y
  rw [View.read_apply]
  show V m c main_arg4 _ = V m c main_arg4 y
  congr 1
  funext a
  apply Fin.ext
  match a with
  | ⟨0, _⟩ => show win0_4.index t (0 : Fin 1) * 512 + 1 * (y 0).val = (y 0).val; rw [e0]; omega

theorem iblk5_eq (c : Dev nD) (t : Fin cfg0.N) : (iblk m c 5 t : Vec Ideal S512x40 .f32) = (V m c main_arg5 : S512x40.Idx → EReal) := by
  have e0 : win0_5.index t (0 : Fin 2) = 0 := by have := idx_facts t; tauto
  have e1 : win0_5.index t (1 : Fin 2) = 0 := by have := idx_facts t; tauto
  unfold iblk
  funext y
  rw [View.read_apply]
  show V m c main_arg5 _ = V m c main_arg5 y
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 40 + 1 * (y 1).val = (y 1).val; rw [e1]; omega

theorem iblk6_eq (c : Dev nD) (t : Fin cfg0.N) : (iblk m c 6 t : Vec Ideal S40 .f32) = (V m c main_arg6 : S40.Idx → EReal) := by
  have e0 : win0_6.index t (0 : Fin 1) = 0 := by have := idx_facts t; tauto
  unfold iblk
  funext y
  rw [View.read_apply]
  show V m c main_arg6 _ = V m c main_arg6 y
  congr 1
  funext a
  apply Fin.ext
  match a with
  | ⟨0, _⟩ => show win0_6.index t (0 : Fin 1) * 40 + 1 * (y 0).val = (y 0).val; rw [e0]; omega

/-- WHAT POINT `t` WRITES BACK is block `t` of the network's value on the batch. -/
theorem flushed_eq (c : Dev nD) (t : Fin cfg0.N) :
    (dats m 0 c).flushed 7 t = ((cfg0.win 7).blk t).view.read (Elt Ideal) (Q m c) := by
  rw [Value.flushed7]
  unfold out0_7
  rw [View.canon_unit_zero hz2]
  simp only [View.ld_unit_zero (S := S2048x15) hz2, View.ld_unit_zero (S := S36x128) hz2, View.ld_unit_zero (S := S128) hz1,
    View.ld_unit_zero (S := S128x512) hz2, View.ld_unit_zero (S := S512) hz1, View.ld_unit_zero (S := S512x40) hz2,
    View.ld_unit_zero (S := S40) hz1]
  have e0 : win0_7.index t (0 : Fin 2) = t.val := by have := idx_facts t; tauto
  have e1 : win0_7.index t (1 : Fin 2) = 0 := by have := idx_facts t; tauto
  have ht : t.val < 64 := Nat.lt_of_lt_of_eq t.isLt (show cfg0.N = 64 from N_0)
  funext j
  obtain ⟨p, n, rfl⟩ : ∃ (p : Fin 2048) (n : Fin 40), j = ix2 p n := ⟨j 0, j 1, eq_ix2 j⟩
  show k0_pay1 (k0_pay2 (iblk m c 0 t) (iblk m c 1 t)) (k0_pay3 (iblk m c 2 t)) (iblk m c 3 t) (iblk m c 4 t)
      (iblk m c 5 t) (iblk m c 6 t) (ix2 p n) = Q m c (((cfg0.win 7).blk t).view.emb (ix2 p n))
  refine (Pay.stored_apply (iblk m c 0 t) (iblk m c 1 t) (iblk m c 2 t) (iblk m c 3 t) (iblk m c 4 t) (iblk m c 5 t)
    (iblk m c 6 t) p n).trans ?_
  rw [iblk1_eq, iblk2_eq, iblk3_eq, iblk4_eq, iblk5_eq, iblk6_eq]
  have er : ((cfg0.win 7).blk t).view.emb (ix2 p n) = (ix2 (⟨t.val * 2048 + p.val, by omega⟩ : Fin 131072) n : S131072x40.Idx) := by
    funext a
    apply Fin.ext
    match a with
    | ⟨0, _⟩ => show win0_7.index t (0 : Fin 2) * 2048 + 1 * p.val = t.val * 2048 + p.val; rw [e0]; omega
    | ⟨1, _⟩ => show win0_7.index t (1 : Fin 2) * 40 + 1 * n.val = n.val; rw [e1]; omega
  rw [er]
  show qrow _ _ _ _ _ _ _ n = qrow (rowOf (V m c main_arg0) (⟨t.val * 2048 + p.val, by omega⟩ : Fin 131072)) _ _ _ _ _ _ n
  have ex : rowOf (iblk m c 0 t : Vec Ideal S2048x15 .f32) p = rowOf (V m c main_arg0 : S131072x15.Idx → EReal) (⟨t.val * 2048 + p.val, by omega⟩ : Fin 131072) :=
    funext fun k => iblk0_apply m c t p k _ rfl
  rw [ex]

/-- An index of the result array is in point `t`'s block iff each coordinate is in the block's range on its axis. -/
theorem mem_blk (t : Fin cfg0.N) (i : S131072x40.Idx) :
    i ∈ ((cfg0.win 7).blk t).view.set ↔ ∀ a : Fin 2, win0_7.index t a * S2048x40.size a ≤ (i a).val
      ∧ (i a).val < win0_7.index t a * S2048x40.size a + S2048x40.size a := by
  show i ∈ ((View.whole main_v0).slice (win0_7.rect t)).set ↔ _
  rw [View.set_slice_whole, Rect.mem_set_unit]
  exact Iff.rfl

/-- Every index of the result array lies in the block of the point its row falls to. -/
theorem cover (i : S131072x40.Idx) : ∃ t : Fin cfg0.N, (cfg0.win 7).flush t = true ∧ i ∈ ((cfg0.win 7).blk t).view.set := by
  have hi0 : (i 0).val < 131072 := (i 0).isLt
  have hi1 : (i 1).val < 40 := (i 1).isLt
  let t : Fin cfg0.N := ⟨(i 0).val / 2048, by rw [show cfg0.N = 64 from N_0]; omega⟩
  have e0 : win0_7.index t (0 : Fin 2) = (i 0).val / 2048 := by have := idx_facts t; tauto
  have e1 : win0_7.index t (1 : Fin 2) = 0 := by have := idx_facts t; tauto
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0]; omega
  | ⟨1, _⟩ => show win0_7.index t (1 : Fin 2) * 40 ≤ (i 1).val ∧ (i 1).val < win0_7.index t (1 : Fin 2) * 40 + 40; rw [e1]; omega

/-- THE RESULT ARRAY after the run is the network's value on the batch. -/
theorem final (c : Dev nD) : (dats m 0 c).arrAt 7 cfg0.N = Q m c :=
  (dats m 0 c).arrAt_eq_of_cover 7 (Q m c) (fun t _ => flushed_eq m c t) cover

/-- The run, read: the result array at the network's value of the arguments as launched, the arguments unchanged. -/
theorem run : θ_run defs (onTc (τ := τ) (main (F := Ideal))) ⟨m, fun _ => 0, ρ⟩ fun r => ∀ c : Dev nD,
      r.2.mem ((c : Thread nD τ).loc main_v0) = qvals (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.Dqn.KValue

end
-- ==== Proof.RefValue.lean ====
/-
  The reference program computes the network of Spec.lean: its result array, read at `(r, n)`, is
  action value `n` of state row `r`.

  The reference builds the 36 features of all rows at once: the board features are a slice, the hold
  indicators compare the clamped hold id, repeated along 4 columns, with the column number, and the
  next-piece indicators do the same on a `rows x 3 x 7` array that is then flattened to 21 columns, so
  that column `q` of those 21 is indicator `q % 7` of next id `q / 7`. Each layer is a matrix product,
  a bias repeated down the rows, and (twice) a maximum with zero.
-/
import proofs.«176917_j40776419508448_1_alg».proof.Proof.Gen.ReferenceIdeal.Read
import proofs.«176917_j40776419508448_1_alg».proof.Proof.Spec

noncomputable section

open scoped BigOperators

namespace Cert.Dqn.Ref

open Cert.ReferenceIdeal Cert.ReferenceIdeal.Gen Cert.ReferenceIdeal.Read
open Idealize.ShloMosaic Idealize.ShloMosaic.TcCoe Idealize.ShloMosaic.ValueIdx Cert.Dqn

variable (x0 : (⟨S131072x15, .f32⟩ : BufTy).Contents (Elt Ideal)) (x1 : (⟨S36x128, .f32⟩ : BufTy).Contents (Elt Ideal))
  (x2 : (⟨S128, .f32⟩ : BufTy).Contents (Elt Ideal)) (x3 : (⟨S128x512, .f32⟩ : BufTy).Contents (Elt Ideal))
  (x4 : (⟨S512, .f32⟩ : BufTy).Contents (Elt Ideal)) (x5 : (⟨S512x40, .f32⟩ : BufTy).Contents (Elt Ideal))
  (x6 : (⟨S40, .f32⟩ : BufTy).Contents (Elt Ideal))

/-- The board features: column `c < 11` of the slice is column `c` of the row. -/
theorem keep_apply (r : Fin 131072) (c : Fin 11) :
    val_main_v0 (F := Ideal) x0 (ix2 r c) = rowOf x0 r ⟨c.val, by omega⟩ := by
  rw [val_main_v0_apply]
  exact congrArg x0 (funext fun a => Fin.ext (by match a with | ⟨0, _⟩ => rfl | ⟨1, _⟩ => rfl))

/-- The hold indicators: column `c` says whether the row's clamped hold id is `c`. -/
theorem hold_apply (r : Fin 131072) (c : Fin 4) :
    val_main_v10 (F := Ideal) x0 (ix2 r c) = hot (holdId (rowOf x0 r)) c.val := by
  rw [val_main_v10_apply, val_main_call2_v4_apply, val_main_call2_v2_apply, val_main_call2_v0_apply, val_main_v4_apply,
    val_main_call0_v4_apply, val_main_call0_v3_apply, val_main_c_0_apply, val_main_call0_v2_apply, val_main_call0_v1_apply,
    val_main_call0_v0_apply, val_main_c_apply, val_main_v3_apply, val_main_v2_apply, val_main_v1_apply,
    val_main_call2_v3_apply, val_main_call2_v1_apply]
  have e : idx_main_v1 (idx_main_v2 (idx_main_call2_v0 (idx_main_call2_v2 (ix2 r c)))) = ix2 r (11 : Fin 15) :=
    funext fun a => Fin.ext (by match a with | ⟨0, _⟩ => (show r.val / 1 = r.val; omega) | ⟨1, _⟩ => rfl)
  rw [e]
  rfl

/-- The next-piece indicators: column `q` of the 21 says whether the row's clamped next id number `q / 7` is `q % 7`. -/
theorem next_apply (r : Fin 131072) (q : Fin 21) :
    val_main_v12 (F := Ideal) x0 (ix2 r q) = hot (nextId (rowOf x0 r) ⟨q.val / 7, by omega⟩) (q.val % 7) := by
  rw [val_main_v12_apply, val_main_v11_apply, val_main_call3_v4_apply, val_main_call3_v2_apply, val_main_call3_v0_apply,
    val_main_v9_apply, val_main_call1_v4_apply, val_main_call1_v3_apply, val_main_c_3_apply, val_main_call1_v2_apply,
    val_main_call1_v1_apply, val_main_call1_v0_apply, val_main_c_2_apply, val_main_v8_apply, val_main_v6_apply,
    val_main_v5_apply, val_main_v7_apply, val_main_c_1_apply, val_main_call3_v3_apply, val_main_call3_v1_apply]
  have hq : q.val < 21 := q.isLt
  have hr : r.val < 131072 := r.isLt
  have e : idx_main_v5 (idx_main_call3_v0 (idx_main_call3_v2 (idx_main_v12 (ix2 r q)))) = ix2 r (⟨12 + q.val / 7, by omega⟩ : Fin 15) :=
    funext fun a => Fin.ext (by
      match a with
      | ⟨0, _⟩ => (show (r.val * 21 + q.val) / 21 = r.val; omega)
      | ⟨1, _⟩ => (show 12 + (r.val * 21 + q.val) / 7 % 3 = 12 + q.val / 7; omega))
  have ec : (idx_main_call3_v3 (idx_main_v12 (ix2 r q)) 2).val = q.val % 7 := by
    show (r.val * 21 + q.val) % 7 = q.val % 7; omega
  rw [e, ec]
  rfl

/-- The 36 features of row `r`, read off the three-part concatenation. -/
theorem feat_apply (r : Fin 131072) (k : Fin 36) :
    val_main_v13 (F := Ideal) x0 (ix2 r k) = feat (rowOf x0 r) k := by
  unfold val_main_v13 feat
  by_cases h1 : k.val < 11
  · rw [dif_pos h1]
    refine Eq.trans (concatenate_apply_piece (1 : Fin 2) _ _ (ix2 r k) 0 (by simp) S131072x11 (val_main_v0 (F := Ideal) x0) rfl rfl 0 rfl
      (ix2 r (⟨k.val, h1⟩ : Fin 11)) (fun b hb => ?_) ?_) (keep_apply x0 r ⟨k.val, h1⟩)
    · match b with
      | ⟨0, _⟩ => rfl
      | ⟨1, _⟩ => exact absurd rfl hb
    · show 0 + k.val = k.val; omega
  · rw [dif_neg h1]
    by_cases h2 : k.val < 15
    · rw [dif_pos h2]
      refine Eq.trans (concatenate_apply_piece (1 : Fin 2) _ _ (ix2 r k) 1 (by simp) S131072x4 (val_main_v10 (F := Ideal) x0) rfl rfl 11 rfl
        (ix2 r (⟨k.val - 11, by omega⟩ : Fin 4)) (fun b hb => ?_) ?_) (hold_apply x0 r ⟨k.val - 11, by omega⟩)
      · match b with
        | ⟨0, _⟩ => rfl
        | ⟨1, _⟩ => exact absurd rfl hb
      · show 11 + (k.val - 11) = k.val; omega
    · rw [dif_neg h2]
      have hk : k.val < 36 := k.isLt
      refine Eq.trans (concatenate_apply_piece (1 : Fin 2) _ _ (ix2 r k) 2 (by simp) S131072x21 (val_main_v12 (F := Ideal) x0) rfl rfl 15 rfl
        (ix2 r (⟨k.val - 15, by omega⟩ : Fin 21)) (fun b hb => ?_) ?_) (next_apply x0 r ⟨k.val - 15, by omega⟩)
      · match b with
        | ⟨0, _⟩ => rfl
        | ⟨1, _⟩ => exact absurd rfl hb
      · show 15 + (k.val - 15) = k.val; omega

/-- The first hidden layer of row `r`. -/
theorem hid1_apply (r : Fin 131072) (n : Fin 128) :
    val_main_v18 (F := Ideal) x0 x1 x2 (ix2 r n) = hid1 (rowOf x0 r) x1 x2 n := by
  rw [val_main_v18_apply, val_main_v17_apply, val_main_v14_apply, val_main_v16_apply, val_main_v15_apply,
    val_main_call4_v0_apply, val_main_call4_cst_apply]
  have el : ∀ k : Fin 36, lidx_main_v14 (ix2 r n) k = ix2 r k := fun k =>
    funext fun a => Fin.ext (by match a with | ⟨0, _⟩ => rfl | ⟨1, _⟩ => rfl)
  have er : ∀ k : Fin 36, ridx_main_v14 (ix2 r n) k = ix2 k n := fun k =>
    funext fun a => Fin.ext (by match a with | ⟨0, _⟩ => rfl | ⟨1, _⟩ => rfl)
  have eb : idx_main_v15 (idx_main_v16 (ix2 r n)) = ix1 n := funext fun a => Fin.ext (by match a with | ⟨0, _⟩ => rfl)
  simp only [el, er, eb, feat_apply]
  rfl

/-- The second hidden layer of row `r`. -/
theorem hid2_apply (r : Fin 131072) (n : Fin 512) :
    val_main_v23 (F := Ideal) x0 x1 x2 x3 x4 (ix2 r n) = hid2 (rowOf x0 r) x1 x2 x3 x4 n := by
  rw [val_main_v23_apply, val_main_v22_apply, val_main_v19_apply, val_main_v21_apply, val_main_v20_apply,
    val_main_call5_v0_apply, val_main_call5_cst_apply]
  have el : ∀ k : Fin 128, lidx_main_v19 (ix2 r n) k = ix2 r k := fun k =>
    funext fun a => Fin.ext (by match a with | ⟨0, _⟩ => rfl | ⟨1, _⟩ => rfl)
  have er : ∀ k : Fin 128, ridx_main_v19 (ix2 r n) k = ix2 k n := fun k =>
    funext fun a => Fin.ext (by match a with | ⟨0, _⟩ => rfl | ⟨1, _⟩ => rfl)
  have eb : idx_main_v20 (idx_main_v21 (ix2 r n)) = ix1 n := funext fun a => Fin.ext (by match a with | ⟨0, _⟩ => rfl)
  simp only [el, er, eb, hid1_apply]
  rfl

/-- The action values of row `r`. -/
theorem qrow_apply (r : Fin 131072) (n : Fin 40) :
    val_main_v27 (F := Ideal) x0 x1 x2 x3 x4 x5 x6 (ix2 r n) = qrow (rowOf x0 r) x1 x2 x3 x4 x5 x6 n := by
  rw [val_main_v27_apply, val_main_v24_apply, val_main_v26_apply, val_main_v25_apply]
  have el : ∀ k : Fin 512, lidx_main_v24 (ix2 r n) k = ix2 r k := fun k =>
    funext fun a => Fin.ext (by match a with | ⟨0, _⟩ => rfl | ⟨1, _⟩ => rfl)
  have er : ∀ k : Fin 512, ridx_main_v24 (ix2 r n) k = ix2 k n := fun k =>
    funext fun a => Fin.ext (by match a with | ⟨0, _⟩ => rfl | ⟨1, _⟩ => rfl)
  have eb : idx_main_v25 (idx_main_v26 (ix2 r n)) = ix1 n := funext fun a => Fin.ext (by match a with | ⟨0, _⟩ => rfl)
  simp only [el, er, eb, hid2_apply]
  rfl

/-- The reference's result is the network's value on the whole batch. -/
theorem result_eq : val_main_v27 (F := Ideal) x0 x1 x2 x3 x4 x5 x6 = qvals x0 x1 x2 x3 x4 x5 x6 := by
  funext i
  obtain ⟨r, n, rfl⟩ : ∃ (r : Fin 131072) (n : Fin 40), i = ix2 r n := ⟨i 0, i 1, eq_ix2 i⟩
  exact qrow_apply x0 x1 x2 x3 x4 x5 x6 r n

end Cert.Dqn.Ref

end
-- ==== Proof.lean ====
/- The proof of `Cert.Claim` (proofs.«176917_j40776419508448_1_alg».proof.Defs): a batch of 131072 game states through a small network of
   three affine layers, the kernel against the plain array program.

   Each state row has 15 entries; its hold-piece id and three next-piece ids are truncated, clamped and written
   as indicator vectors beside the 11 board features, which makes 36 features; then 36 -> 128 -> 512 -> 40 with
   `max(., 0)` after the first two layers. Proof/Spec.lean writes this once, row by row, on the extended reals.

   The kernel walks the batch in 64 blocks of 2048 rows, holding the weights whole, and narrows its operands to
   bf16 before each product; on the extended reals a change of format is the identity and a product into a zero
   accumulator is the plain sum, so each stored entry is the specification's value of its row
   (Proof/KernelFeat.lean: the features; Proof/KernelPay.lean: the layers), and the 64 blocks fill the result
   array (Proof/KernelValue.lean). The reference computes the same sums in the same order on the whole batch at
   once (Proof/RefValue.lean). No law beyond `0 + s = s` joins the two sides, so finiteness of the inputs is
   not used. The three frames are the generated ones; the idealization rewrote nothing, so `preserves` is trivial. -/
import proofs.«176917_j40776419508448_1_alg».proof.Defs
import proofs.«176917_j40776419508448_1_alg».proof.Proof.Gen.Kernel
import proofs.«176917_j40776419508448_1_alg».proof.Proof.Gen.Kernel.Skeleton
import proofs.«176917_j40776419508448_1_alg».proof.Proof.Gen.Kernel.Launch
import proofs.«176917_j40776419508448_1_alg».proof.Proof.Gen.Kernel.Points
import proofs.«176917_j40776419508448_1_alg».proof.Proof.Gen.Kernel.Frame
import proofs.«176917_j40776419508448_1_alg».proof.Proof.Gen.KernelIdeal
import proofs.«176917_j40776419508448_1_alg».proof.Proof.Gen.KernelIdeal.Skeleton
import proofs.«176917_j40776419508448_1_alg».proof.Proof.Gen.KernelIdeal.Launch
import proofs.«176917_j40776419508448_1_alg».proof.Proof.Gen.KernelIdeal.Points
import proofs.«176917_j40776419508448_1_alg».proof.Proof.Gen.KernelIdeal.Frame
import proofs.«176917_j40776419508448_1_alg».proof.Proof.Gen.ReferenceIdeal
import proofs.«176917_j40776419508448_1_alg».proof.Proof.Gen.Pre_finite_inputs
import proofs.«176917_j40776419508448_1_alg».proof.Proof.Gen.KernelIdeal.Value
import proofs.«176917_j40776419508448_1_alg».proof.Proof.Gen.ReferenceIdeal.Run
import proofs.«176917_j40776419508448_1_alg».proof.Proof.Gen.ReferenceIdeal.Read
import proofs.«176917_j40776419508448_1_alg».proof.Proof.KernelValue
import proofs.«176917_j40776419508448_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the network's value (`Cert.Dqn.qvals`) of the same arguments. -/
theorem algebraic : Cert.algebraic_KernelIdeal_ReferenceIdeal := by
  intro m ρ m' ρ' _ hagree
  refine ⟨_, Cert.Dqn.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v27_eq, Cert.Dqn.Ref.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
